-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x300000 32) (main_arg2 : FVec F S256x256 .f32) (main_arg3 : FVec F S256 .f32) (main_arg4 : FVec F S256x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_v13 main_v16
-- ==== Kernel.lean ====
abbrev S100000x256 : Shape := ⟨2, ![100000, 256]⟩
abbrev S2x300000 : Shape := ⟨2, ![2, 300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S2000x256 : Shape := ⟨2, ![2000, 256]⟩
abbrev S400000x256 : Shape := ⟨2, ![400000, 256]⟩
abbrev S1x256 : Shape := ⟨2, ![1, 256]⟩
abbrev S1x1 : Shape := ⟨2, ![1, 1]⟩
abbrev S100000x1 : Shape := ⟨2, ![100000, 1]⟩
abbrev S2000x1 : Shape := ⟨2, ![2000, 1]⟩

abbrev nBuf : Space → Nat
  | .hbm => 66
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S100000, .i32⟩
  | .hbm, ⟨7, _⟩ => ⟨S1x300000, .i32⟩
  | .hbm, ⟨8, _⟩ => ⟨S300000, .i32⟩
  | .hbm, ⟨9, _⟩ => ⟨S400000, .i32⟩
  | .hbm, ⟨10, _⟩ => ⟨S1x300000, .i32⟩
  | .hbm, ⟨11, _⟩ => ⟨S300000, .i32⟩
  | .hbm, ⟨12, _⟩ => ⟨S400000, .i32⟩
  | .hbm, ⟨13, _⟩ => ⟨S_, .f32⟩
  | .hbm, ⟨14, _⟩ => ⟨S400000, .f32⟩
  | .hbm, ⟨15, _⟩ => ⟨S_, .f32⟩
  | .hbm, ⟨16, _⟩ => ⟨S100000, .f32⟩
  | .hbm, ⟨17, _⟩ => ⟨S400000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000, .f32⟩
  | .hbm, ⟨45, _⟩ => ⟨S400000, .f32⟩
  | .hbm, ⟨46, _⟩ => ⟨S100000x256, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x256, .f32⟩
  | .hbm, ⟨56, _⟩ => ⟨S400000x1, .f32⟩
  | .hbm, ⟨57, _⟩ => ⟨S400000x256, .f32⟩
  | .hbm, ⟨58, _⟩ => ⟨S400000x256, .f32⟩
  | .hbm, ⟨59, _⟩ => ⟨S_, .f32⟩
  | .hbm, ⟨60, _⟩ => ⟨S100000x256, .f32⟩
  | .hbm, ⟨61, _⟩ => ⟨S400000x1, .i32⟩
  | .hbm, ⟨62, _⟩ => ⟨S100000x256, .f32⟩
  | .hbm, ⟨63, _⟩ => ⟨S1x256, .f32⟩
  | .hbm, ⟨64, _⟩ => ⟨S1x1, .f32⟩
  | .hbm, ⟨65, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S2000x1, .f32⟩
  | .local _ .vmem, ⟨11, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x300000_S1x300000_0_0 : S2x300000.Slices ![0, 0] S1x300000
  shapeCasts_S1x300000_S300000 : S1x300000.ShapeCasts S300000
  concatenates_S300000_S100000_S400000_d0 : Shape.Concatenates [S300000, S100000] S400000 0
  slices_S2x300000_S1x300000_1_0 : S2x300000.Slices ![1, 0] S1x300000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  shapeCasts_S256_S1x256 : S256.ShapeCasts S1x256
  shapeCasts_S1_S1x1 : S1.ShapeCasts S1x1
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S2000x256_S256x256_S2000x256_1_0_0_1_n_n_wf : DotDims.WF S2000x256 S256x256 S2000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S2000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x300000 : Shape := ⟨2, ![1, 300000]⟩
abbrev S300000 : Shape := ⟨1, ![300000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S100000x1 : Shape := ⟨2, ![100000, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S100000, .i32⟩
  | .hbm, ⟨7, _⟩ => ⟨S1x300000, .i32⟩
  | .hbm, ⟨8, _⟩ => ⟨S300000, .i32⟩
  | .hbm, ⟨9, _⟩ => ⟨S400000, .i32⟩
  | .hbm, ⟨10, _⟩ => ⟨S1x300000, .i32⟩
  | .hbm, ⟨11, _⟩ => ⟨S300000, .i32⟩
  | .hbm, ⟨12, _⟩ => ⟨S400000, .i32⟩
  | .hbm, ⟨13, _⟩ => ⟨S_, .f32⟩
  | .hbm, ⟨14, _⟩ => ⟨S400000, .f32⟩
  | .hbm, ⟨15, _⟩ => ⟨S_, .f32⟩
  | .hbm, ⟨16, _⟩ => ⟨S100000, .f32⟩
  | .hbm, ⟨17, _⟩ => ⟨S400000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S400000, .i32⟩
  | .hbm, ⟨29, _⟩ => ⟨S400000, .i1⟩
  | .hbm, ⟨30, _⟩ => ⟨S_, .i32⟩
  | .hbm, ⟨31, _⟩ => ⟨S400000, .i32⟩
  | .hbm, ⟨32, _⟩ => ⟨S400000, .i32⟩
  | .hbm, ⟨33, _⟩ => ⟨S400000, .i32⟩
  | .hbm, ⟨34, _⟩ => ⟨S400000x1, .i32⟩
  | .hbm, ⟨35, _⟩ => ⟨S400000, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000, .f32⟩
  | .hbm, ⟨45, _⟩ => ⟨S400000, .f32⟩
  | .hbm, ⟨46, _⟩ => ⟨S100000x256, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000x256, .f32⟩
  | .hbm, ⟨56, _⟩ => ⟨S400000x1, .f32⟩
  | .hbm, ⟨57, _⟩ => ⟨S400000x256, .f32⟩
  | .hbm, ⟨58, _⟩ => ⟨S400000x256, .f32⟩
  | .hbm, ⟨59, _⟩ => ⟨S_, .f32⟩
  | .hbm, ⟨60, _⟩ => ⟨S100000x256, .f32⟩
  | .hbm, ⟨61, _⟩ => ⟨S400000x1, .i32⟩
  | .hbm, ⟨62, _⟩ => ⟨S100000x256, .f32⟩
  | .hbm, ⟨63, _⟩ => ⟨S1x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | .hbm, ⟨73, _⟩ => ⟨S100000x1, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S100000x1, .f32⟩
  | .hbm, ⟨80, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  concatenates_S300000_S100000_S400000_d0 : Shape.Concatenates [S300000, S100000] S400000 0
  slices_S2x300000_S1x300000_1_0 : S2x300000.Slices ![1, 0] S1x300000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S100000x256_S256x256_S100000x256_1_0_0_1_n_n_wf : DotDims.WF S100000x256 S256x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x1_S100000x1_1_0_0_1_n_n_wf : DotDims.WF S100000x256 S256x1 S100000x1 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.DensePayload.lean ====
/-
  The dense kernel's stored value at an entry.

  One grid point of the first kernel loads a 2000×256 block of x and the whole 256×256 weight array, changes both to bf16
  (the identity on the extended reals) and stores their matrix product accumulated into zeros. So entry (p, q) of what it stores
  is Σ_k xblock (p, k) · w (k, q).
-/
import proofs.«161625_j33861522161794_1_alg».proof.Proof.Gen.KernelIdeal.Skeleton
import proofs.«161625_j33861522161794_1_alg».proof.Proof.LibPlainDot
import Idealize.ShloMosaic.Lib.ValueIdx

noncomputable section

open Idealize.ShloMosaic Idealize.ShloMosaic.ValueIdx

namespace Cert.KernelIdeal.Dense

open Cert.KernelIdeal Cert.KernelIdeal.Gen

/-- Entry (p, q) of the block product the first kernel stores. -/
theorem pay_apply (x0 : Vec Ideal S2000x256 .f32) (x1 : Vec Ideal S256x256 .f32) (p : Fin 2000) (q : Fin 256) :
    k0_pay1 (F := Ideal) x0 x1 (ix2 p q) = ∑ k : Fin 256, x0 (ix2 p k) * x1 (ix2 k q) := by
  unfold k0_pay1
  exact PlainDot.matmul_zero_apply 2000 256 256 _ _ p q

end Cert.KernelIdeal.Dense

end
-- ==== Proof.Spec.lean ====
/-
  What both programs compute, as functions of whole arrays on the extended reals.

  `dense x w` is the matrix product of a 100000×256 array with a 256×256 array: entry (p, q) is Σ_k x (p, k) · w (k, q).
  `head a b wl bl` is the classifier head over an aggregated feature array `a`: row p gives
  σ (Σ_k max (a (p, k) + b k, 0) · wl (k, 0) + bl 0), with σ t = 1 / (1 + e^(-t)) (and its limits 0 and 1 at -∞ and +∞).
  The graph aggregation between the two (degrees, symmetric normalisation, gather of source rows, scatter-add onto destination
  rows) is the same chain of array operations in both programs and is never opened: it is carried as one function of the edge
  list and of the dense product.
-/
import Idealize.ShloMosaic.PureOps.Ideal.Laws
import Idealize.ShloMosaic.Lib.ValueIdx

noncomputable section

namespace Cert.Spec

open Idealize.ShloMosaic Idealize.ShloMosaic.ValueIdx

/-- Entry (p, q) of the product x·w: the sum over the shared axis. -/
def dense (x : FVec Ideal ⟨2, ![100000, 256]⟩ .f32) (w : FVec Ideal ⟨2, ![256, 256]⟩ .f32) : FVec Ideal ⟨2, ![100000, 256]⟩ .f32 :=
  fun i => ∑ k : Fin 256, x (ix2 (⟨(i 0).val, (i 0).isLt⟩ : Fin 100000) k) * w (ix2 k (⟨(i 1).val, (i 1).isLt⟩ : Fin 256))

/-- The logit of row p: the rectified, biased features of the row against the weight column, plus the output bias. -/
def logit (a : FVec Ideal ⟨2, ![100000, 256]⟩ .f32) (b : FVec Ideal ⟨1, ![256]⟩ .f32) (wl : FVec Ideal ⟨2, ![256, 1]⟩ .f32)
    (bl : FVec Ideal ⟨1, ![1]⟩ .f32) (p : Fin 100000) : EReal :=
  (∑ k : Fin 256, max (a (ix2 p k) + b (ix1 k)) 0 * wl (ix2 k (0 : Fin 1))) + bl (ix1 (0 : Fin 1))

/-- The head: the logistic function of each row's logit. -/
def head (a : FVec Ideal ⟨2, ![100000, 256]⟩ .f32) (b : FVec Ideal ⟨1, ![256]⟩ .f32) (wl : FVec Ideal ⟨2, ![256, 1]⟩ .f32)
    (bl : FVec Ideal ⟨1, ![1]⟩ .f32) : FVec Ideal ⟨2, ![100000, 1]⟩ .f32 :=
  fun i => Ideal.logistic (logit a b wl bl ⟨(i 0).val, (i 0).isLt⟩)

/-- The pattern of 1.0 denotes the real 1. -/
theorem ofBits_one : Ideal.ofBits .f32 0x3F800000#32 = 1 := by
  simp [Ideal.ofBits, Ideal.ieee, -EReal.coe_mul]; norm_num

/-- The logistic function spelt with a division, as a host program spells it: 1 / (1 + e^(-t)). -/
theorem logistic_eq_div (t : EReal) :
    Ideal.div (Ideal.ofBits .f32 0x3F800000#32) (Ideal.ofBits .f32 0x3F800000#32 + Ideal.exp (-t)) = Ideal.logistic t := by
  rw [ofBits_one]; rfl

end Cert.Spec

end
-- ==== Proof.DenseRegion.lean ====
/-
  The array the dense kernel leaves.

  The first kernel runs over fifty grid points; point t fetches rows 2000·t … 2000·t + 1999 of x (all 256 columns) and the
  whole weight array, and writes the block product back to the same rows of its output. A block's element (r, q) sits in the
  array at row (block index) · 2000 + r, so what point t writes back is block t of the whole product x·w, and the fifty blocks
  tile the 100000 rows: the output array ends holding x·w, entry by entry Σ_k x (p, k) · w (k, q). Everything here is stated
  at the buffer contents V the region is entered with, whatever they are.
-/
import proofs.«161625_j33861522161794_1_alg».proof.Proof.Gen.KernelIdeal.Frame
import proofs.«161625_j33861522161794_1_alg».proof.Proof.DensePayload
import proofs.«161625_j33861522161794_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry j of a stored block is entry i of the whole product, when the x block's row (j 0) is row (i 0) of x and column (j 1)
    of the weight block is column (i 1) of the weights. -/
theorem entry_of_blocks (xa : S100000x256.Idx → EReal) (wa : S256x256.Idx → EReal)
    (xb : Vec Ideal S2000x256 .f32) (wb : Vec Ideal S256x256 .f32) (j : S2000x256.Idx) (i : S100000x256.Idx)
    (hx : ∀ k : Fin 256, xb (ix2 (⟨(j 0).val, (j 0).isLt⟩ : Fin 2000) k) = xa (ix2 (⟨(i 0).val, (i 0).isLt⟩ : Fin 100000) k))
    (hw : ∀ k : Fin 256, wb (ix2 k (⟨(j 1).val, (j 1).isLt⟩ : Fin 256)) = wa (ix2 k (⟨(i 1).val, (i 1).isLt⟩ : Fin 256))) :
    k0_pay1 (F := Ideal) xb wb j = Spec.dense xa wa i := by
  obtain ⟨p, q, rfl⟩ : ∃ (p : Fin 2000) (q : Fin 256), j = ix2 p q := ⟨j 0, j 1, eq_ix2 j⟩
  rw [pay_apply]
  unfold Spec.dense
  exact Finset.sum_congr rfl fun k _ => by rw [← hx k, ← hw k]

/-- WHAT POINT t WRITES BACK is block t of the product of the two argument arrays as the region finds them: rows
    2000·t … 2000·t + 1999 of x against the whole weight array. -/
theorem flushed_eq (c : Dev nD) (t : Fin cfg0.N) :
    (dat0 V c).flushed 2 t = ((cfg0.win 2).blk t).view.read (Elt Ideal) (Spec.dense (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨e0, e1, e2, e3, e4, e5⟩ := idx_facts t
  funext j
  show k0_pay1 (iblk0 V c 0 t) (iblk0 V c 1 t) j = Spec.dense (V c main_arg0) (V c main_arg2) (((cfg0.win 2).blk t).view.emb j)
  refine entry_of_blocks (V c main_arg0) (V c main_arg2) (iblk0 V c 0 t) (iblk0 V c 1 t) j (((cfg0.win 2).blk t).view.emb j) (fun k => ?_) (fun k => ?_)
  · show V c main_arg0 (((cfg0.win 0).blk t).view.emb (ix2 (⟨(j 0).val, (j 0).isLt⟩ : Fin 2000) k)) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_arg2 (((cfg0.win 1).blk t).view.emb (ix2 k (⟨(j 1).val, (j 1).isLt⟩ : Fin 256))) = V c main_arg2 _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the array is in point t's block iff each coordinate is in the block's range on its axis. -/
theorem mem_blk (t : Fin cfg0.N) (i : S100000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row r of the array lies in the block of point r / 2000: the fifty blocks of 2000 rows tile the 100000 rows. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  let t : Fin cfg0.N := ⟨(i 0).val / 2000, by show (i 0).val / 2000 < 50; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE ARRAY the first kernel leaves: the product of the x array and the weight array it was entered with. -/
theorem final (c : Dev nD) : (dat0 V c).arrAt 2 cfg0.N = Spec.dense (V c main_arg0) (V c main_arg2) :=
  (dat0 V c).arrAt_eq_of_cover 2 (Spec.dense (V c main_arg0) (V c main_arg2)) (fun t _ => flushed_eq V c t) cover

end Cert.KernelIdeal.Dense

end
-- ==== Proof.HeadPayload.lean ====
/-
  The head kernel's stored value at an entry.

  One grid point of the second kernel loads a 2000×256 block of aggregated features, the 1×256 bias row, the 256×1 weight
  column and the 1×1 output bias; it adds the bias row to every row, rectifies (maximum with zero), multiplies by the weight
  column (a matrix product into zeros, operands changed to bf16: the identity on the extended reals), adds the output bias to
  every row and applies the logistic function. So entry (p, 0) of what it stores is
  σ (Σ_k max (a (p, k) + b (0, k), 0) · wl (k, 0) + bl (0, 0)).
-/
import proofs.«161625_j33861522161794_1_alg».proof.Proof.Gen.KernelIdeal.Skeleton
import proofs.«161625_j33861522161794_1_alg».proof.Proof.LibPlainDot
import proofs.«161625_j33861522161794_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Head

open Cert.KernelIdeal Cert.KernelIdeal.Gen

/-- Entry (p, q) of what the head kernel stores: the logistic function of the block row's rectified, biased features against
    the weight column, plus the output bias. The bias row and the output bias are broadcast along the rows; the changes to bf16
    are the identity. -/
theorem pay_apply (a : Vec Ideal S2000x256 .f32) (b2 : Vec Ideal S1x256 .f32) (wl : Vec Ideal S256x1 .f32) (bl2 : Vec Ideal S1x1 .f32)
    (p : Fin 2000) (q : Fin 1) :
    k1_pay1 (F := Ideal) a b2 wl bl2 (ix2 p q)
      = Ideal.logistic ((∑ k : Fin 256, max (a (ix2 p k) + b2 (ix2 (0 : Fin 1) k)) 0 * wl (ix2 k q)) + bl2 (ix2 (0 : Fin 1) (0 : Fin 1))) := by
  unfold k1_pay1
  simp only [shapeCast_self]
  show Ideal.logistic (matmul (F := Ideal) dot_S2000x256_S256x1_S2000x1_1_0_0_1_n_n none _ _ _ (ix2 p q) + (broadcastTo S2000x1 bl2 broadcasts_S1x1_S2000x1 : FVec Ideal S2000x1 .f32) (ix2 p q)) = _
  refine congrArg Ideal.logistic (congrArg₂ (· + ·) ?_ ?_)
  · refine (PlainDot.matmul_zero_apply 2000 256 1 _ _ p q).trans (Finset.sum_congr rfl fun k _ => ?_)
    rw [truncf_apply, truncf_apply, maximumf_apply, addf_apply, broadcast_apply, Ideal.ofBits_def, Ideal.ofBits_zero_f32,
      broadcastTo_apply b2 broadcasts_S1x256_S2000x256 (ix2 p k) (ix2 (0 : Fin 1) k) (fun a => match a with
        | ⟨0, _⟩ => by show 0 = if (1 : Nat) = 1 then 0 else _; rw [if_pos rfl]
        | ⟨1, _⟩ => by show k.val = if (256 : Nat) = 1 then 0 else k.val; rw [if_neg (by decide)])]
  · exact broadcastTo_apply bl2 broadcasts_S1x1_S2000x1 (ix2 p q) (ix2 (0 : Fin 1) (0 : Fin 1)) (fun a => match a with
        | ⟨0, _⟩ => by show 0 = if (1 : Nat) = 1 then 0 else _; rw [if_pos rfl]
        | ⟨1, _⟩ => by show 0 = if (1 : Nat) = 1 then 0 else _; rw [if_pos rfl])

end Cert.KernelIdeal.Head

end
-- ==== Proof.HeadRegion.lean ====
/-
  The array the head kernel leaves.

  The second kernel runs over fifty grid points; point t fetches rows 2000·t … 2000·t + 1999 of the aggregated features and,
  at every point, the same bias row, weight column and output bias, and writes 2000 results back to the same rows of its
  output. What point t writes back is therefore block t of the head over whole arrays, and the fifty blocks tile the 100000
  rows: the output array ends holding the head, row by row. Everything here is stated at the buffer contents V the region is
  entered with, whatever they are.
-/
import proofs.«161625_j33861522161794_1_alg».proof.Proof.Gen.KernelIdeal.Frame
import proofs.«161625_j33861522161794_1_alg».proof.Proof.HeadPayload
import proofs.«161625_j33861522161794_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the feature window and the output window move down the rows with the point,
    the bias row, the weight column and the output bias stay at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry j of a stored block is entry i of the head over whole arrays, when the feature block's row (j 0) is row (i 0) of the
    feature array, the bias row's block is the bias, the weight block is the weight column and the output bias's block is the
    output bias. -/
theorem entry_of_blocks (aa : S100000x256.Idx → EReal) (b : S256.Idx → EReal) (wl : S256x1.Idx → EReal) (bl : S1.Idx → EReal)
    (ab : Vec Ideal S2000x256 .f32) (bb : Vec Ideal S1x256 .f32) (wb : Vec Ideal S256x1 .f32) (blb : Vec Ideal S1x1 .f32)
    (j : S2000x1.Idx) (i : S100000x1.Idx)
    (ha : ∀ k : Fin 256, ab (ix2 (⟨(j 0).val, (j 0).isLt⟩ : Fin 2000) k) = aa (ix2 (⟨(i 0).val, (i 0).isLt⟩ : Fin 100000) k))
    (hb : ∀ k : Fin 256, bb (ix2 (0 : Fin 1) k) = b (ix1 k))
    (hw : ∀ k : Fin 256, wb (ix2 k (0 : Fin 1)) = wl (ix2 k (0 : Fin 1)))
    (hbl : blb (ix2 (0 : Fin 1) (0 : Fin 1)) = bl (ix1 (0 : Fin 1))) :
    k1_pay1 (F := Ideal) ab bb wb blb j = Spec.head aa b wl bl i := by
  obtain ⟨p, q, rfl⟩ : ∃ (p : Fin 2000) (q : Fin 1), j = ix2 p q := ⟨j 0, j 1, eq_ix2 j⟩
  obtain rfl : q = 0 := Subsingleton.elim _ _
  rw [pay_apply]
  unfold Spec.head Spec.logit
  refine congrArg Ideal.logistic (congrArg₂ (· + ·) (Finset.sum_congr rfl fun k _ => ?_) hbl)
  rw [← ha k, ← hb k, ← hw k]

/-- WHAT POINT t WRITES BACK is block t of the head over the arrays the region finds: rows 2000·t … 2000·t + 1999 of the
    aggregated features, against the bias, the weight column and the output bias. -/
theorem flushed_eq (c : Dev nD) (b : S256.Idx → EReal) (bl : S1.Idx → EReal)
    (hb : ∀ k : Fin 256, V c main_v44 (ix2 (0 : Fin 1) k) = b (ix1 k))
    (hbl : V c main_v45 (ix2 (0 : Fin 1) (0 : Fin 1)) = bl (ix1 (0 : Fin 1))) (t : Fin cfg1.N) :
    (dat1 V c).flushed 4 t = ((cfg1.win 4).blk t).view.read (Elt Ideal) (Spec.head (V c main_v43) b (V c main_arg4) bl) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz, View.ld_unit_zero (S := S256x1) hz,
    View.ld_unit_zero (S := S1x1) hz]
  obtain ⟨e0, e1, e2, e3, e4, e5, e6, e7, e8, e9⟩ := idx_facts t
  funext j
  show k1_pay1 (iblk1 V c 0 t) (iblk1 V c 1 t) (iblk1 V c 2 t) (iblk1 V c 3 t) j
    = Spec.head (V c main_v43) b (V c main_arg4) bl (((cfg1.win 4).blk t).view.emb j)
  refine entry_of_blocks (V c main_v43) b (V c main_arg4) bl (iblk1 V c 0 t) (iblk1 V c 1 t) (iblk1 V c 2 t) (iblk1 V c 3 t) j
    (((cfg1.win 4).blk t).view.emb j) (fun k => ?_) (fun k => ?_) (fun k => ?_) ?_
  · show V c main_v43 (((cfg1.win 0).blk t).view.emb (ix2 (⟨(j 0).val, (j 0).isLt⟩ : Fin 2000) k)) = V c main_v43 _
    refine congrArg (V c main_v43) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * k.val = k.val; omega
  · refine Eq.trans ?_ (hb k)
    show V c main_v44 (((cfg1.win 1).blk t).view.emb (ix2 (0 : Fin 1) k)) = V c main_v44 _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 256 + 1 * k.val = k.val; omega
  · show V c main_arg4 (((cfg1.win 2).blk t).view.emb (ix2 k (0 : Fin 1))) = V c main_arg4 _
    refine congrArg (V c main_arg4) (funext fun a => Fin.ext ?_)
    match a with
    | ⟨0, _⟩ => show win1_2.index t (0 : Fin 2) * 256 + 1 * k.val = k.val; omega
    | ⟨1, _⟩ => show win1_2.index t (1 : Fin 2) * 1 + 1 * 0 = 0; omega
  · refine Eq.trans ?_ hbl
    show V c main_v45 (((cfg1.win 3).blk t).view.emb (ix2 (0 : Fin 1) (0 : Fin 1))) = V c main_v45 _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 1 + 1 * 0 = 0; omega

/-- An index of the array is in point t's block iff each coordinate is in the block's range on its axis. -/
theorem mem_blk (t : Fin cfg1.N) (i : S100000x1.Idx) :
    i ∈ ((cfg1.win 4).blk t).view.set ↔ ∀ a : Fin 2, win1_4.index t a * S2000x1.size a ≤ (i a).val ∧ (i a).val < win1_4.index t a * S2000x1.size a + S2000x1.size a := by
  show i ∈ ((View.whole main_v46).slice (win1_4.rect t)).set ↔ _
  rw [View.set_slice_whole, Rect.mem_set_unit]
  exact Iff.rfl

/-- Row r of the output lies in the block of point r / 2000: the fifty blocks of 2000 rows tile the 100000 rows. -/
theorem cover (i : S100000x1.Idx) : ∃ t : Fin cfg1.N, (cfg1.win 4).flush t = true ∧ i ∈ ((cfg1.win 4).blk t).view.set := by
  have hi0 : (i 0).val < 100000 := (i 0).isLt
  have hi1 : (i 1).val < 1 := (i 1).isLt
  let t : Fin cfg1.N := ⟨(i 0).val / 2000, by show (i 0).val / 2000 < 50; omega⟩
  obtain ⟨e0, e1, e2, e3, e4, e5, e6, e7, e8, e9⟩ := idx_facts t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 1 ≤ (i 1).val ∧ (i 1).val < win1_4.index t (1 : Fin 2) * 1 + 1; omega

/-- THE ARRAY the head kernel leaves: the head over the aggregated features it was entered with, the bias (whose row form the
    region reads), the weight column and the output bias (whose 1×1 form the region reads). -/
theorem final (c : Dev nD) (b : S256.Idx → EReal) (bl : S1.Idx → EReal)
    (hb : ∀ k : Fin 256, V c main_v44 (ix2 (0 : Fin 1) k) = b (ix1 k))
    (hbl : V c main_v45 (ix2 (0 : Fin 1) (0 : Fin 1)) = bl (ix1 (0 : Fin 1))) :
    (dat1 V c).arrAt 4 cfg1.N = Spec.head (V c main_v43) b (V c main_arg4) bl :=
  (dat1 V c).arrAt_eq_of_cover 4 (Spec.head (V c main_v43) b (V c main_arg4) bl) (fun t _ => flushed_eq V c b bl hb hbl t) cover

end Cert.KernelIdeal.Head

end
-- ==== Proof.RefValue.lean ====
/-
  The reference's result as a function of its arguments.

  The reference computes the dense product x·w with one host matrix product, runs the graph aggregation on it, adds the bias,
  rectifies, multiplies by the weight column, adds the output bias and applies 1 / (1 + e^(-t)). Read entry by entry on the
  extended reals: the matrix products are sums over the shared axis, the broadcasts read the bias at the column and the
  output bias at its one entry, and the division form is the logistic function. The aggregation between the two products is
  named `agg` and carried whole: it is the same chain of operations the kernel's program applies to its own dense product.
-/
import proofs.«161625_j33861522161794_1_alg».proof.Proof.RefRead
import proofs.«161625_j33861522161794_1_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.ReadP

/-- The graph aggregation as one function of the edge list and of a dense 100000×256 array h: gather the source rows of h,
    scale each by its edge's normalisation, and scatter-add onto the destination rows of a zero array. The index vectors and
    the normalisation are functions of the edge list alone. Never opened. -/
def agg {F : FTy → Type} [FloatOps F] (x1 : (⟨S2x300000, .i32⟩ : BufTy).Contents (Elt F)) (h : (⟨S100000x256, .f32⟩ : BufTy).Contents (Elt F)) :
    (⟨S100000x256, .f32⟩ : BufTy).Contents (Elt F) :=
  Host.scatterAdd scatter_S100000x256_S400000x1_S400000x256_1_0_0_1 (val_main_v41 (F := F)) (val_main_v42 (F := F) x1)
    (mulf (Host.gather gather_S100000x256_S400000x1_S400000x256_1_0_n_n_0_1_1256 h (val_main_v36 (F := F) x1)) (val_main_v39 (F := F) x1))

/-- The reference's aggregated features are the aggregation of its dense product. -/
theorem val_main_v43_eq {F : FTy → Type} [FloatOps F] (x0 : (⟨S100000x256, .f32⟩ : BufTy).Contents (Elt F)) (x1 : (⟨S2x300000, .i32⟩ : BufTy).Contents (Elt F))
    (x2 : (⟨S256x256, .f32⟩ : BufTy).Contents (Elt F)) : val_main_v43 (F := F) x0 x1 x2 = agg x1 (val_main_v30 (F := F) x0 x2) := by
  unfold val_main_v43 val_main_v40 val_main_v37 agg
  rfl

/-- The reference's dense product is the matrix product, entry by entry. -/
theorem dense_eq (x0 : (⟨S100000x256, .f32⟩ : BufTy).Contents (Elt Ideal)) (x2 : (⟨S256x256, .f32⟩ : BufTy).Contents (Elt Ideal)) :
    val_main_v30 (F := Ideal) x0 x2 = Spec.dense x0 x2 := by
  funext i
  rw [val_main_v30_apply]
  unfold Spec.dense
  refine Finset.sum_congr rfl fun k _ => ?_
  have el : lidx_main_v30 i k = ix2 (⟨(i 0).val, (i 0).isLt⟩ : Fin 100000) k :=
    funext fun a => Fin.ext (by match a with | ⟨0, _⟩ => rfl | ⟨1, _⟩ => rfl)
  have er : ridx_main_v30 i k = ix2 k (⟨(i 1).val, (i 1).isLt⟩ : Fin 256) :=
    funext fun a => Fin.ext (by match a with | ⟨0, _⟩ => rfl | ⟨1, _⟩ => rfl)
  rw [el, er]

/-- The reference's result is the head over the aggregation of the dense product: row by row the logistic function (spelt
    1 / (1 + e^(-t)) by the host) of the rectified, biased aggregated features against the weight column, plus the output bias. -/
theorem head_eq (x0 : (⟨S100000x256, .f32⟩ : BufTy).Contents (Elt Ideal)) (x1 : (⟨S2x300000, .i32⟩ : BufTy).Contents (Elt Ideal))
    (x2 : (⟨S256x256, .f32⟩ : BufTy).Contents (Elt Ideal)) (x3 : (⟨S256, .f32⟩ : BufTy).Contents (Elt Ideal))
    (x4 : (⟨S256x1, .f32⟩ : BufTy).Contents (Elt Ideal)) (x5 : (⟨S1, .f32⟩ : BufTy).Contents (Elt Ideal)) :
    val_main_v57 (F := Ideal) x0 x1 x2 x3 x4 x5 = Spec.head (agg x1 (Spec.dense x0 x2)) x3 x4 x5 := by
  funext i
  rw [val_main_v57_apply, val_main_v56_apply, val_main_cst_10_apply, val_main_v55_apply, val_main_v54_apply, val_main_cst_9_apply,
    val_main_v53_apply, val_main_v52_apply, val_main_v51_apply, val_main_v48_apply, val_main_v50_apply, val_main_v49_apply]
  simp only [val_main_v47_apply, val_main_v46_apply, val_main_v45_apply, val_main_v44_apply, val_main_call1_v0_apply, val_main_call1_cst_apply,
    val_main_v43_eq, dense_eq]
  have hi1 : (i 1).val = 0 := by have h : (i 1).val < 1 := (i 1).isLt; omega
  have el : ∀ k : Fin 256, lidx_main_v48 i k = ix2 (⟨(i 0).val, (i 0).isLt⟩ : Fin 100000) k := fun k =>
    funext fun a => Fin.ext (by match a with | ⟨0, _⟩ => rfl | ⟨1, _⟩ => rfl)
  have er : ∀ k : Fin 256, ridx_main_v48 i k = ix2 k (0 : Fin 1) := fun k =>
    funext fun a => Fin.ext (by match a with | ⟨0, _⟩ => rfl | ⟨1, _⟩ => exact hi1)
  have eb : ∀ k : Fin 256, idx_main_v44 (idx_main_v45 (lidx_main_v48 i k)) = ix1 k := fun k =>
    funext fun a => Fin.ext (by match a with | ⟨0, _⟩ => rfl)
  have ebl : idx_main_v49 (idx_main_v50 i) = ix1 (0 : Fin 1) :=
    funext fun a => Fin.ext (by match a with | ⟨0, _⟩ => rfl)
  simp only [el, er, eb, ebl]
  unfold Spec.head Spec.logit
  rw [← Spec.logistic_eq_div]
  simp only [Ideal.hostDivf_def, Ideal.addf_def, Ideal.hostUnary_exp_def, Ideal.hostNegf_def, Ideal.negf_def, Ideal.ofBits_def,
    Ideal.maximumf_def, Ideal.ofBits_zero_f32]

end Cert.ReferenceIdeal.RefValue

end
-- ==== Proof.HostStretch.lean ====
/-
  What the host operations around the two kernels leave in the buffers the kernels read.

  Before the first kernel the host only prepares the graph's index vectors and edge normalisation from the edge list; it
  writes no argument, so the kernel finds x and the weight array as launched. Between the kernels the host gathers the source
  rows of the first kernel's output, scales them by the edge normalisation and scatter-adds them onto the destination rows:
  the aggregation, which is the reference's own chain of operations over the same edge list (stage by stage the same terms),
  applied to whatever the first kernel left. It also reshapes the bias to one row and the output bias to 1×1. Stated for any
  float family: nothing here computes with a float.
-/
import proofs.«161625_j33861522161794_1_alg».proof.Proof.Gen.KernelIdeal.Frame
import proofs.«161625_j33861522161794_1_alg».proof.Proof.RefValue
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Host

open Cert.KernelIdeal Cert.KernelIdeal.Gen

variable {F : FTy → Type} [FloatOps F]
variable (m : (ℓ : Loc nD τ sig) → Buf (Elt F) ℓ) (ρ : Dev nD → PrngReg)

open Cert.ReferenceIdeal.ReadP Cert.ReferenceIdeal.RefValue

/-! ## The buffers no stretch writes -/

/-- The first kernel is entered with x as launched: no host operation before it writes an argument. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

/-- and with the weight array as launched. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

/-- The bias is as launched when the first kernel has run: it is none of that kernel's arrays. -/
theorem W4_arg3 (c : Dev nD) : W4 m ρ c (Proc.devRef .tc main_arg3) = m ((c : Thread nD τ).loc main_arg3) := by
  rw [W4_of_ne m ρ c main_arg3 (by decide)]
  show StableHlo.after hostOps0_2 (StableHlo.after hostOps0_1 (StableHlo.after hostOps0 (W0 m ρ c))) (Proc.devRef .tc main_arg3) = _
  after_results

/-- So is the output bias. -/
theorem W4_arg5 (c : Dev nD) : W4 m ρ c (Proc.devRef .tc main_arg5) = m ((c : Thread nD τ).loc main_arg5) := by
  rw [W4_of_ne m ρ c main_arg5 (by decide)]
  show StableHlo.after hostOps0_2 (StableHlo.after hostOps0_1 (StableHlo.after hostOps0 (W0 m ρ c))) (Proc.devRef .tc main_arg5) = _
  after_results

/-- The head kernel is entered with the weight column as launched. -/
theorem W5_arg4 (c : Dev nD) : W5 m ρ c (Proc.devRef .tc main_arg4) = m ((c : Thread nD τ).loc main_arg4) := by
  show StableHlo.after hostOps1 (W4 m ρ c) (Proc.devRef .tc main_arg4) = _
  after_results
  rw [W4_of_ne m ρ c main_arg4 (by decide)]
  show StableHlo.after hostOps0_2 (StableHlo.after hostOps0_1 (StableHlo.after hostOps0 (W0 m ρ c))) (Proc.devRef .tc main_arg4) = _
  after_results

/-! ## The two reshapes before the head kernel -/

/-- The head kernel's bias row is the bias reshaped to one row. -/
theorem W5_v44 (c : Dev nD) : W5 m ρ c (Proc.devRef .tc main_v44) = shapeCast S1x256 (m ((c : Thread nD τ).loc main_arg3)) shapeCasts_S256_S1x256 := by
  rw [← W4_arg3 m ρ c]
  show StableHlo.after hostOps1 (W4 m ρ c) (Proc.devRef .tc main_v44) = _
  after_results
  rfl

/-- The head kernel's 1×1 output bias is the output bias reshaped. -/
theorem W5_v45 (c : Dev nD) : W5 m ρ c (Proc.devRef .tc main_v45) = shapeCast S1x1 (m ((c : Thread nD τ).loc main_arg5)) shapeCasts_S1_S1x1 := by
  rw [← W4_arg5 m ρ c]
  show StableHlo.after hostOps1 (W4 m ρ c) (Proc.devRef .tc main_v45) = _
  after_results
  rfl

/-! ## The edge list's index vectors and normalisation: the reference's own stages -/

set_option maxHeartbeats 4000000 in
/-- The source-node vector (edge sources, then one self loop per node) when the first kernel has run. -/
theorem v3_eq (c : Dev nD) : W4 m ρ c (Proc.devRef .tc main_v3) = val_main_v3 (F := F) (m ((c : Thread nD τ).loc main_arg1)) := by
  rw [W4_of_ne m ρ c main_v3 (by decide)]
  show StableHlo.after hostOps0_2 (StableHlo.after hostOps0_1 (StableHlo.after hostOps0 (W0 m ρ c))) (Proc.devRef .tc main_v3) = _
  after_results
  rfl

set_option maxHeartbeats 4000000 in
/-- The destination-node vector (edge destinations, then one self loop per node). -/
theorem v6_eq (c : Dev nD) : W4 m ρ c (Proc.devRef .tc main_v6) = val_main_v6 (F := F) (m ((c : Thread nD τ).loc main_arg1)) := by
  rw [W4_of_ne m ρ c main_v6 (by decide)]
  show StableHlo.after hostOps0_2 (StableHlo.after hostOps0_1 (StableHlo.after hostOps0 (W0 m ρ c))) (Proc.devRef .tc main_v6) = _
  after_results
  rfl

set_option maxHeartbeats 8000000 in
/-- The per-edge normalisation: the inverse square roots of the two end nodes' degrees, multiplied. -/
theorem v29_eq (c : Dev nD) : W4 m ρ c (Proc.devRef .tc main_v29) = val_main_v29 (F := F) (m ((c : Thread nD τ).loc main_arg1)) := by
  rw [W4_of_ne m ρ c main_v29 (by decide)]
  show StableHlo.after hostOps0_2 (StableHlo.after hostOps0_1 (StableHlo.after hostOps0 (W0 m ρ c))) (Proc.devRef .tc main_v29) = _
  after_results
  rfl

set_option maxHeartbeats 4000000 in
/-- The head kernel is entered with the aggregation of what the first kernel left: the same chain of gather, scale and
    scatter-add the reference applies to its dense product, over the same edge list. -/
theorem W5_v43 (c : Dev nD) : W5 m ρ c (Proc.devRef .tc main_v43)
    = agg (F := F) (m ((c : Thread nD τ).loc main_arg1)) (W4 m ρ c (Proc.devRef .tc main_v30)) := by
  show StableHlo.after hostOps1 (W4 m ρ c) (Proc.devRef .tc main_v43) = _
  after_results_simp
  rw [v3_eq, v6_eq, v29_eq]
  rfl

end Cert.KernelIdeal.Host

end
-- ==== Proof.KernelValue.lean ====
/-
  The kernel program's result as a function of its arguments.

  Reading the run backwards from the result buffer: the head kernel leaves the head over the features it was entered with;
  those are the aggregation (over the edge list) of what the dense kernel left; and the dense kernel leaves the product of x
  and the weight array, both as launched. So the result is head (agg edges (x·w)) b wl bl: the function the reference computes.
-/
import proofs.«161625_j33861522161794_1_alg».proof.Proof.KernelRun
import proofs.«161625_j33861522161794_1_alg».proof.Proof.DenseRegion
import proofs.«161625_j33861522161794_1_alg».proof.Proof.HeadRegion
import proofs.«161625_j33861522161794_1_alg».proof.Proof.HostStretch
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Whole

open Cert.KernelIdeal Cert.KernelIdeal.Gen
open Cert.ReferenceIdeal.RefValue (agg)

variable (m : (ℓ : Loc nD τ sig) → Buf (Elt Ideal) ℓ) (ρ : Dev nD → PrngReg)

/-- The result: the head over the aggregation of the dense product, all of the arguments as launched. -/
def result (c : Dev nD) : Buf (Elt Ideal) ((c.tc : Thread nD τ).loc main_v46) :=
  Spec.head (agg (F := Ideal) (m ((c : Thread nD τ).loc main_arg1)) (Spec.dense (m ((c : Thread nD τ).loc main_arg0)) (m ((c : Thread nD τ).loc main_arg2))))
    (m ((c : Thread nD τ).loc main_arg3)) (m ((c : Thread nD τ).loc main_arg4)) (m ((c : Thread nD τ).loc main_arg5))

/-- The head kernel's bias row holds the bias: entry (0, k) of the reshaped array is entry k. -/
theorem bias_row (c : Dev nD) (k : Fin 256) :
    V5 m ρ c main_v44 (ix2 (0 : Fin 1) k) = ((m ((c : Thread nD τ).loc main_arg3)) : S256.Idx → EReal) (ix1 k) := by
  show W5 m ρ c (Proc.devRef .tc main_v44) (ix2 (0 : Fin 1) k) = _
  refine (congrFun (Host.W5_v44 m ρ c) _).trans ?_
  exact shapeCast_apply _ _ (ix2 (0 : Fin 1) k) (ix1 k) (by
    rw [Shape.rowMajor_val_one, Shape.rowMajor_val_two]; show k.val = 0 * 256 + k.val; omega)

/-- The head kernel's 1×1 output bias holds the output bias. -/
theorem out_bias (c : Dev nD) :
    V5 m ρ c main_v45 (ix2 (0 : Fin 1) (0 : Fin 1)) = ((m ((c : Thread nD τ).loc main_arg5)) : S1.Idx → EReal) (ix1 (0 : Fin 1)) := by
  show W5 m ρ c (Proc.devRef .tc main_v45) (ix2 (0 : Fin 1) (0 : Fin 1)) = _
  refine (congrFun (Host.W5_v45 m ρ c) _).trans ?_
  exact shapeCast_apply _ _ (ix2 (0 : Fin 1) (0 : Fin 1)) (ix1 (0 : Fin 1)) (by
    rw [Shape.rowMajor_val_one, Shape.rowMajor_val_two]; show 0 = 0 * 1 + 0; omega)

/-- The head kernel is entered with the aggregation of the dense product of the launched arguments. -/
theorem features (c : Dev nD) :
    V5 m ρ c main_v43 = agg (F := Ideal) (m ((c : Thread nD τ).loc main_arg1)) (Spec.dense (m ((c : Thread nD τ).loc main_arg0)) (m ((c : Thread nD τ).loc main_arg2))) := by
  show W5 m ρ c (Proc.devRef .tc main_v43) = _
  rw [Host.W5_v43 m ρ c]
  refine congrArg (agg (F := Ideal) (m ((c : Thread nD τ).loc main_arg1))) ?_
  refine (W4_arr m ρ c 2).trans ((Dense.final (V3 m ρ) c).trans ?_)
  rw [show V3 m ρ c main_arg0 = (m ((c : Thread nD τ).loc main_arg0)) from Host.W3_arg0 m ρ c,
    show V3 m ρ c main_arg2 = (m ((c : Thread nD τ).loc main_arg2)) from Host.W3_arg2 m ρ c]

/-- The last boundary's contents of the result buffer are `result`. -/
theorem result_eq (c : Dev nD) : W6 m ρ c (Proc.devRef .tc main_v46) = result m c := by
  refine (W6_arr m ρ c 4).trans ((Head.final (V5 m ρ) c (m ((c : Thread nD τ).loc main_arg3)) (m ((c : Thread nD τ).loc main_arg5)) (bias_row m ρ c) (out_bias m ρ c)).trans ?_)
  rw [features m ρ c, show V5 m ρ c main_arg4 = (m ((c : Thread nD τ).loc main_arg4)) from Host.W5_arg4 m ρ c]
  rfl

/-- The run, read: the result buffer ends at `result`, the arguments as launched. -/
theorem run : θ_run defs (onTc (τ := τ) (main (F := Ideal))) ⟨m, fun _ => 0, ρ⟩ (fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.GenRun.run (F := Ideal) m ρ)

end Cert.KernelIdeal.Whole

end
-- ==== Proof.lean ====
/-
  The certificate of a graph-convolution classifier: a Pallas program of two kernels around host gather / scatter-add against
  its plain jax reference.

  Both programs compute, for node features x [100000, 256], an edge list [2, 300000], weights W [256, 256], bias b [256],
  a weight column wl [256, 1] and an output bias bl [1]:

      out = σ ( relu ( agg (x·W) + b ) · wl + bl ),     σ t = 1 / (1 + e^(-t)),

  where agg adds self loops, normalises each edge by the inverse square roots of its end nodes' degrees, gathers the source
  rows and scatter-adds them onto the destination rows. The kernel program computes x·W in a first kernel (fifty blocks of
  2000 rows, operands changed to bf16 before the product) and relu(· + b)·wl + bl with the logistic function in a second one
  (again fifty blocks of 2000 rows), with agg between them on the host; the reference does everything on the host.

  On the extended reals a change of float format is the identity, a matrix product into zeros is the sum over the shared axis,
  whatever its blocking, and the logistic operation is 1 / (1 + e^(-t)) with limits 0 and 1. So both results are the one function
  `head (agg edges (dense x W)) b wl bl` of the arguments (Proof/Spec.lean): Proof/KernelValue.lean reads it off the kernel
  program's run (Proof/DenseRegion.lean, Proof/HostStretch.lean, Proof/HeadRegion.lean), Proof/RefValue.lean off the
  reference's. The aggregation is the same chain of operations in both and is carried whole, never opened; no law used needs
  the inputs finite, so the precondition is not opened either. The idealization rewrote nothing, so `preserves` is trivial.
-/
import proofs.«161625_j33861522161794_1_alg».proof.Defs
import proofs.«161625_j33861522161794_1_alg».proof.Proof.Gen.Kernel
import proofs.«161625_j33861522161794_1_alg».proof.Proof.Gen.Kernel.Frame
import proofs.«161625_j33861522161794_1_alg».proof.Proof.Gen.KernelIdeal
import proofs.«161625_j33861522161794_1_alg».proof.Proof.Gen.KernelIdeal.Frame
import proofs.«161625_j33861522161794_1_alg».proof.Proof.Gen.ReferenceIdeal
import proofs.«161625_j33861522161794_1_alg».proof.Proof.Gen.Pre_finite_inputs
import proofs.«161625_j33861522161794_1_alg».proof.Proof.KernelValue
import proofs.«161625_j33861522161794_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the head over the aggregation of the dense product. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v57_eq, Cert.ReferenceIdeal.RefValue.head_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
